-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : IVec S2x800000 32) (main_arg2 : FVec F S800000 .f32) (main_arg3 : FVec F S3x64x64 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x64x64 .f32 := Host.absf main_arg3
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S10000x64 : Shape := ⟨2, ![10000, 64]⟩
abbrev S1x64x64 : Shape := ⟨3, ![1, 64, 64]⟩
abbrev S64x64 : Shape := ⟨2, ![64, 64]⟩
abbrev S1x64 : Shape := ⟨2, ![1, 64]⟩

abbrev nBuf : Space → Nat
  | .hbm => 104
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S3x64x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S800000, .i1⟩
  | .hbm, ⟨10, _⟩ => ⟨S_, .f32⟩
  | .hbm, ⟨11, _⟩ => ⟨S_, .f32⟩
  | .hbm, ⟨12, _⟩ => ⟨S800000, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S800000, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000, .f32⟩
  | .hbm, ⟨53, _⟩ => ⟨S800000, .f32⟩
  | .hbm, ⟨54, _⟩ => ⟨S_, .f32⟩
  | .hbm, ⟨55, _⟩ => ⟨S800000, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x64, .f32⟩
  | .hbm, ⟨69, _⟩ => ⟨S800000x64, .f32⟩
  | .hbm, ⟨70, _⟩ => ⟨S800000x64, .f32⟩
  | .hbm, ⟨71, _⟩ => ⟨S_, .f32⟩
  | .hbm, ⟨72, _⟩ => ⟨S50000x64, .f32⟩
  | .hbm, ⟨73, _⟩ => ⟨S800000x1, .i32⟩
  | .hbm, ⟨74, _⟩ => ⟨S50000x64, .f32⟩
  | .hbm, ⟨75, _⟩ => ⟨S50000x1, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S800000x1, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x64, .f32⟩
  | .hbm, ⟨89, _⟩ => ⟨S800000x64, .f32⟩
  | .hbm, ⟨90, _⟩ => ⟨S800000x64, .f32⟩
  | .hbm, ⟨91, _⟩ => ⟨S_, .f32⟩
  | .hbm, ⟨92, _⟩ => ⟨S50000x64, .f32⟩
  | .hbm, ⟨93, _⟩ => ⟨S800000x1, .i32⟩
  | .hbm, ⟨94, _⟩ => ⟨S50000x64, .f32⟩
  | .hbm, ⟨95, _⟩ => ⟨S50000x1, .f32⟩
  | .hbm, ⟨96, _⟩ => ⟨S50000x64, .f32⟩
  | .hbm, ⟨97, _⟩ => ⟨S50000x64, .f32⟩
  | .hbm, ⟨98, _⟩ => ⟨S50000x64, .f32⟩
  | .hbm, ⟨99, _⟩ => ⟨S_, .f32⟩
  | .hbm, ⟨100, _⟩ => ⟨S50000x64, .f32⟩
  | .hbm, ⟨101, _⟩ => ⟨S50000x64, .f32⟩
  | .hbm, ⟨102, _⟩ => ⟨S50000x64, .f32⟩
  | .hbm, ⟨103, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S3x64x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_call2_v0 : Ref sig .tc := ⟨.hbm, 30, rfl⟩
abbrev main_call2_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_c_11 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_12 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_13 : Ref sig .tc := ⟨.hbm, 80, rfl⟩
abbrev main_v54 : Ref sig .tc := ⟨.hbm, 81, rfl⟩
abbrev main_v55 : Ref sig .tc := ⟨.hbm, 82, rfl⟩
abbrev main_c_14 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_15 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_16 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v72) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v73) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x64x64 : Shape := ⟨3, ![1, 64, 64]⟩
abbrev S64x64 : Shape := ⟨2, ![64, 64]⟩
abbrev S800000x64 : Shape := ⟨2, ![800000, 64]⟩
abbrev S50000x1 : Shape := ⟨2, ![50000, 1]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S3x64x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S800000, .i1⟩
  | .hbm, ⟨10, _⟩ => ⟨S_, .f32⟩
  | .hbm, ⟨11, _⟩ => ⟨S_, .f32⟩
  | .hbm, ⟨12, _⟩ => ⟨S800000, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S800000, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000, .f32⟩
  | .hbm, ⟨53, _⟩ => ⟨S800000, .f32⟩
  | .hbm, ⟨54, _⟩ => ⟨S_, .f32⟩
  | .hbm, ⟨55, _⟩ => ⟨S800000, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S1x64x64, .f32⟩
  | .hbm, ⟨60, _⟩ => ⟨S64x64, .f32⟩
  | .hbm, ⟨61, _⟩ => ⟨S50000x64, .f32⟩
  | .hbm, ⟨62, _⟩ => ⟨S800000x1, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S50000x1, .f32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S1x64x64, .f32⟩
  | .hbm, ⟨83, _⟩ => ⟨S64x64, .f32⟩
  | .hbm, ⟨84, _⟩ => ⟨S50000x64, .f32⟩
  | .hbm, ⟨85, _⟩ => ⟨S50000x64, .f32⟩
  | .hbm, ⟨86, _⟩ => ⟨S800000x1, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x64, .f32⟩
  | .hbm, ⟨96, _⟩ => ⟨S800000x64, .f32⟩
  | .hbm, ⟨97, _⟩ => ⟨S800000x64, .f32⟩
  | .hbm, ⟨98, _⟩ => ⟨S_, .f32⟩
  | .hbm, ⟨99, _⟩ => ⟨S50000x64, .f32⟩
  | .hbm, ⟨100, _⟩ => ⟨S800000x1, .i32⟩
  | .hbm, ⟨101, _⟩ => ⟨S50000x64, .f32⟩
  | .hbm, ⟨102, _⟩ => ⟨S50000x1, .f32⟩
  | .hbm, ⟨103, _⟩ => ⟨S50000x64, .f32⟩
  | .hbm, ⟨104, _⟩ => ⟨S50000x64, .f32⟩
  | .hbm, ⟨105, _⟩ => ⟨S50000x64, .f32⟩
  | .hbm, ⟨106, _⟩ => ⟨S_, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S1x64x64, .f32⟩
  | .hbm, ⟨111, _⟩ => ⟨S64x64, .f32⟩
  | .hbm, ⟨112, _⟩ => ⟨S50000x64, .f32⟩
  | .hbm, ⟨113, _⟩ => ⟨S50000x64, .f32⟩
  | .hbm, ⟨114, _⟩ => ⟨S1x64, .f32⟩
  | .hbm, ⟨115, _⟩ => ⟨S50000x64, .f32⟩
  | .hbm, ⟨116, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_call2_v0 : Ref sig .tc := ⟨.hbm, 30, rfl⟩
abbrev main_call2_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_12 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x64x64_S1x64x64_0_0_0 : S3x64x64.Slices ![0, 0, 0] S1x64x64
  shapeCasts_S1x64x64_S64x64 : S1x64x64.ShapeCasts S64x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KernelPayload.lean ====
/-
  What the kernel body stores, read at an entry.

  The body loads a `[10000, 64]` row block of each Chebyshev term, the three `[1, 64, 64]` weight
  slabs and the bias, narrows the operands to bf16 (no change of value over the extended reals),
  multiplies each row block by its order's weight matrix into a zero accumulator, adds the three
  products in the order of the orders and then the bias broadcast over the rows. At row `p` and
  unit `q` of the block the stored value is therefore
      ((∑ k, x0[p, k] · w0[0, k, q] + ∑ k, x1[p, k] · w1[0, k, q]) + ∑ k, x2[p, k] · w2[0, k, q]) + b[q].
-/
import proofs.«100515_j60601988547227_1_alg».proof.Proof.Gen.KernelIdeal.Skeleton
import proofs.«100515_j60601988547227_1_alg».proof.Proof.LibDot2
import Idealize.ShloMosaic.Lib.Pipeline.Value
import Idealize.ShloMosaic.Lib.ValueIdx
import Idealize.ShloMosaic.Lib.ValueLayout

noncomputable section

open scoped BigOperators

namespace Cert.KernelIdeal.Hand

open Cert.KernelIdeal Cert.KernelIdeal.Gen Idealize.ShloMosaic Idealize.ShloMosaic.ValueIdx

/-- One order's product at `(p, q)`: the row block times the order's weight slab read as a matrix,
    accumulated into zero, is the sum over the feature index of the entries' products. Narrowing the
    operands to bf16 changes nothing over the extended reals. -/
theorem prod_apply (x : FVec Ideal S10000x64 .f32) (w : FVec Ideal S1x64x64 .f32)
    (h1 : FTy.bf16.bits < FTy.f32.bits) (h2 : S1x64x64.ShapeCasts S64x64) (p : Fin 10000) (q : Fin 64) :
    matmul (F := Ideal) dot_S10000x64_S64x64_S10000x64_1_0_0_1_n_n none (truncf .bf16 x h1)
        (truncf .bf16 (shapeCast S64x64 w h2) h1) (constant S10000x64 .f32 0x00000000#32) (ix2 p q)
      = ∑ k : Fin 64, x (ix2 p k) * w (ix3 (0 : Fin 1) k q) := by
  refine (Dot2.matmul_zero_mm_apply (M := 10000) (K := 64) (N := 64)
    dot_S10000x64_S64x64_S10000x64_1_0_0_1_n_n.wf none _ _ p q).trans ?_
  refine Finset.sum_congr rfl fun k _ => ?_
  rw [truncf_apply, truncf_apply, shapeCast_1ab_ab_apply]

/-- The stored value at `(p, q)`. -/
theorem pay_apply (x0 x1 x2 : Vec Ideal S10000x64 .f32) (w0 w1 w2 : Vec Ideal S1x64x64 .f32) (b : Vec Ideal S64 .f32)
    (p : Fin 10000) (q : Fin 64) :
    k0_pay1 (F := Ideal) x0 x1 x2 w0 w1 w2 b (ix2 p q)
      = ((∑ k : Fin 64, x0 (ix2 p k) * w0 (ix3 (0 : Fin 1) k q) + ∑ k : Fin 64, x1 (ix2 p k) * w1 (ix3 (0 : Fin 1) k q))
          + ∑ k : Fin 64, x2 (ix2 p k) * w2 (ix3 (0 : Fin 1) k q)) + b (ix1 q) := by
  unfold k0_pay1
  rw [addf_apply, addf_apply, addf_apply]
  simp only [shapeCast_self]
  rw [prod_apply, prod_apply, prod_apply, broadcastTo_1b_ab_apply, shapeCast_a_1a_apply]

end Cert.KernelIdeal.Hand

end
-- ==== Proof.Spec.lean ====
/-
  The order-three Chebyshev graph filter's dense stage, index by index.

  Given the three Chebyshev terms `t0, t1, t2 : [50000, 64]` of the node features, the filter
  weights `w : [3, 64, 64]` (one `[64, 64]` matrix per order) and the bias `b : [64]`, the layer's
  output at node `r` and unit `c` is
      ((∑ k, t0[r, k] · w[0, k, c] + ∑ k, t1[r, k] · w[1, k, c]) + ∑ k, t2[r, k] · w[2, k, c]) + b[c]
  over the extended reals, the three matrix products added in the order of the orders and the bias
  last. Both programs compute exactly this grouping, so no law of the extended reals beyond the
  reading of each product as a sum is needed, and nothing about finiteness.
-/
import Idealize.ShloMosaic.PureOps.Ideal
import Idealize.ShloMosaic.Lib.ValueIdx

noncomputable section

open scoped BigOperators

namespace Cheby

open Idealize.ShloMosaic Idealize.ShloMosaic.ValueIdx

/-- The filter's output at node `r`, unit `c`: the three orders' products summed in order, then the bias. -/
def filterAt (t0 t1 t2 : (⟨2, ![50000, 64]⟩ : Shape).Idx → EReal) (w : (⟨3, ![3, 64, 64]⟩ : Shape).Idx → EReal)
    (b : (⟨1, ![64]⟩ : Shape).Idx → EReal) (r : Fin 50000) (c : Fin 64) : EReal :=
  ((∑ k : Fin 64, t0 (ix2 r k) * w (ix3 (0 : Fin 3) k c) + ∑ k : Fin 64, t1 (ix2 r k) * w (ix3 (1 : Fin 3) k c))
    + ∑ k : Fin 64, t2 (ix2 r k) * w (ix3 (2 : Fin 3) k c)) + b (ix1 c)

/-- The filter's output as one array. -/
def filterSum (t0 t1 t2 : (⟨2, ![50000, 64]⟩ : Shape).Idx → EReal) (w : (⟨3, ![3, 64, 64]⟩ : Shape).Idx → EReal)
    (b : (⟨1, ![64]⟩ : Shape).Idx → EReal) : (⟨2, ![50000, 64]⟩ : Shape).Idx → EReal :=
  fun i => filterAt t0 t1 t2 w b (i 0) (i 1)

theorem filterSum_ix2 (t0 t1 t2 : (⟨2, ![50000, 64]⟩ : Shape).Idx → EReal) (w : (⟨3, ![3, 64, 64]⟩ : Shape).Idx → EReal)
    (b : (⟨1, ![64]⟩ : Shape).Idx → EReal) (r : Fin 50000) (c : Fin 64) :
    filterSum t0 t1 t2 w b (ix2 r c) = filterAt t0 t1 t2 w b r c := rfl

end Cheby

end
-- ==== Proof.KernelBlocks.lean ====
/-
  The launch's row blocks as rows of the arrays.

  The launch walks the 50000 nodes in five row blocks of 10000. At grid point `t` the three term
  windows and the result window hold rows `10000 t … 10000 t + 9999` of their arrays; the weight window
  holds the whole `[3, 64, 64]` stack and the bias window the whole bias. So row `p` of block `t` is row
  `10000 t + p` of the array, and slab `o` of the weight block is order `o` of the stack.
-/
import proofs.«100515_j60601988547227_1_alg».proof.Proof.Gen.KernelIdeal.Value
import proofs.«100515_j60601988547227_1_alg».proof.Proof.Spec
import Idealize.ShloMosaic.Lib.Pipeline.Value
import Idealize.ShloMosaic.Lib.ValueIdx

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The block index of every window at grid point `t`: the three term windows and the result window
    move down the rows with `t`; the weights and the bias stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 2) = t.val ∧ win0_5.index t (1 : Fin 2) = 0
    ∧ t.val < 5 :=
  (by decide +kernel : ∀ t : Fin grid0.N, _)

/-- Row `p` of block `t` as a row of the whole array. -/
def rowOf (t : Fin cfg0.N) (p : Fin 10000) : Fin 50000 :=
  ⟨t.val * 10000 + p.val, by have h := (idx_facts t).2.2.2.2.2.2.2.2.2.2.2.2; have := p.isLt; omega⟩

/-- An entry of the result window's block `t` is the array's entry `10000 t` rows further down. -/
theorem emb_out (t : Fin cfg0.N) (p : Fin 10000) (q : Fin 64) :
    ((cfg0.win 5).blk t).view.emb (ix2 p q) = ix2 (rowOf t p) q := by
  obtain ⟨e00, e01, e10, e11, e20, e21, e30, e31, e32, e40, e50, e51, ht⟩ := idx_facts t
  funext a; apply Fin.ext
  match a with
  | ⟨0, _⟩ => show win0_5.index t (0 : Fin 2) * 10000 + 1 * p.val = t.val * 10000 + p.val; rw [e50]; omega
  | ⟨1, _⟩ => show win0_5.index t (1 : Fin 2) * 64 + 1 * q.val = q.val; rw [e51]; omega

/-- Block `t` of the first term window, read off any `[50000, 64]` array at `(p, k)`: the array at row `10000 t + p`. -/
theorem read_rows0 (X : FVec Ideal S50000x64 .f32) (t : Fin cfg0.N) (p : Fin 10000) (k : Fin 64) :
    ((cfg0.win 0).blk t).view.read (Elt Ideal) X (ix2 p k) = X (ix2 (rowOf t p) k) := by
  obtain ⟨e00, e01, e10, e11, e20, e21, e30, e31, e32, e40, e50, e51, ht⟩ := idx_facts t
  show X (((cfg0.win 0).blk t).view.emb (ix2 p k)) = _
  refine congrArg X ?_
  funext a; apply Fin.ext
  match a with
  | ⟨0, _⟩ => show win0_0.index t (0 : Fin 2) * 10000 + 1 * p.val = t.val * 10000 + p.val; rw [e00]; omega
  | ⟨1, _⟩ => show win0_0.index t (1 : Fin 2) * 64 + 1 * k.val = k.val; rw [e01]; omega

/-- Block `t` of the second term window, read off any `[50000, 64]` array at `(p, k)`: the array at row `10000 t + p`. -/
theorem read_rows1 (X : FVec Ideal S50000x64 .f32) (t : Fin cfg0.N) (p : Fin 10000) (k : Fin 64) :
    ((cfg0.win 1).blk t).view.read (Elt Ideal) X (ix2 p k) = X (ix2 (rowOf t p) k) := by
  obtain ⟨e00, e01, e10, e11, e20, e21, e30, e31, e32, e40, e50, e51, ht⟩ := idx_facts t
  show X (((cfg0.win 1).blk t).view.emb (ix2 p k)) = _
  refine congrArg X ?_
  funext a; apply Fin.ext
  match a with
  | ⟨0, _⟩ => show win0_1.index t (0 : Fin 2) * 10000 + 1 * p.val = t.val * 10000 + p.val; rw [e10]; omega
  | ⟨1, _⟩ => show win0_1.index t (1 : Fin 2) * 64 + 1 * k.val = k.val; rw [e11]; omega

/-- Block `t` of the third term window, read off any `[50000, 64]` array at `(p, k)`: the array at row `10000 t + p`. -/
theorem read_rows2 (X : FVec Ideal S50000x64 .f32) (t : Fin cfg0.N) (p : Fin 10000) (k : Fin 64) :
    ((cfg0.win 2).blk t).view.read (Elt Ideal) X (ix2 p k) = X (ix2 (rowOf t p) k) := by
  obtain ⟨e00, e01, e10, e11, e20, e21, e30, e31, e32, e40, e50, e51, ht⟩ := idx_facts t
  show X (((cfg0.win 2).blk t).view.emb (ix2 p k)) = _
  refine congrArg X ?_
  funext a; apply Fin.ext
  match a with
  | ⟨0, _⟩ => show win0_2.index t (0 : Fin 2) * 10000 + 1 * p.val = t.val * 10000 + p.val; rw [e20]; omega
  | ⟨1, _⟩ => show win0_2.index t (1 : Fin 2) * 64 + 1 * k.val = k.val; rw [e21]; omega

/-- Slab `o` of the weight window's one block, read off any `[3, 64, 64]` stack at `(0, k, q)`: the
    stack's order `o` at `(k, q)`. -/
theorem read_slab (X : FVec Ideal S3x64x64 .f32) (t : Fin cfg0.N) (o : Nat) (ho : o < 3)
    (inb : ∀ a, (![o, 0, 0] : Fin 3 → Nat) a + S1x64x64.size a ≤ S3x64x64.size a) (k q : Fin 64) :
    View.ld (((cfg0.win 3).blk t).view.read (Elt Ideal) X : Vec Ideal S3x64x64 .f32)
        (Rect.unit (s := S3x64x64) ![o, 0, 0] S1x64x64.size inb) (ix3 (0 : Fin 1) k q)
      = X (ix3 (⟨o, ho⟩ : Fin 3) k q) := by
  obtain ⟨e00, e01, e10, e11, e20, e21, e30, e31, e32, e40, e50, e51, ht⟩ := idx_facts t
  show X (((cfg0.win 3).blk t).view.emb ((Rect.unit (s := S3x64x64) ![o, 0, 0] S1x64x64.size inb).emb (ix3 (0 : Fin 1) k q))) = _
  refine congrArg X ?_
  funext a; apply Fin.ext
  match a with
  | ⟨0, _⟩ => show win0_3.index t (0 : Fin 3) * 3 + 1 * (o + 1 * 0) = o; rw [e30]; omega
  | ⟨1, _⟩ => show win0_3.index t (1 : Fin 3) * 64 + 1 * (0 + 1 * k.val) = k.val; rw [e31]; omega
  | ⟨2, _⟩ => show win0_3.index t (2 : Fin 3) * 64 + 1 * (0 + 1 * q.val) = q.val; rw [e32]; omega

/-- The bias window's one block, read off any `[64]` array, is the array. -/
theorem read_bias (X : FVec Ideal S64 .f32) (t : Fin cfg0.N) (q : Fin 64) :
    ((cfg0.win 4).blk t).view.read (Elt Ideal) X (ix1 q) = X (ix1 q) := by
  obtain ⟨e00, e01, e10, e11, e20, e21, e30, e31, e32, e40, e50, e51, ht⟩ := idx_facts t
  show X (((cfg0.win 4).blk t).view.emb (ix1 q)) = _
  refine congrArg X ?_
  funext a; apply Fin.ext
  match a with
  | ⟨0, _⟩ => show win0_4.index t (0 : Fin 1) * 64 + 1 * q.val = q.val; rw [e40]; omega

end Cert.KernelIdeal.Hand

end
-- ==== Proof.KernelValue.lean ====
/-
  The kernel's result array is the filter sum of the arrays its launch finds.

  At grid point `t` the body stores, at `(p, q)` of the result's block, the filter sum of the blocks'
  rows; read through the blocks (row `p` of block `t` is row `10000 t + p`) that is the filter sum of
  the arrays at `(10000 t + p, q)`. The five blocks tile the result, so after the launch the result
  array is the filter sum everywhere.
-/
import proofs.«100515_j60601988547227_1_alg».proof.Proof.Gen.KernelIdeal.Value
import proofs.«100515_j60601988547227_1_alg».proof.Proof.KernelPayload
import proofs.«100515_j60601988547227_1_alg».proof.Proof.KernelBlocks
import proofs.«100515_j60601988547227_1_alg».proof.Proof.Spec
import Idealize.ShloMosaic.Lib.Pipeline.Value
import Idealize.ShloMosaic.Lib.ValueIdx

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The filter sum of the arrays the launch finds. -/
abbrev result (c : Dev nD) : S50000x64.Idx → EReal :=
  Cheby.filterSum (V m c main_arg0) (V m c main_v52) (V m c main_v72) (V m c main_arg3) (V m c main_arg4)

/-- What the body stores at `(p, q)` of the result's block at grid point `t`, over the input blocks
    at `t`, is the filter sum of the launch's arrays at row `10000 t + p`, unit `q`. -/
theorem stored_apply (c : Dev nD) (t : Fin cfg0.N) (p : Fin 10000) (q : Fin 64) :
    k0_pay1 (F := Ideal) (iblk m c 0 t) (iblk m c 1 t) (iblk m c 2 t) (View.ld (iblk m c 3 t) r0_1)
        (View.ld (iblk m c 3 t) r0_2) (View.ld (iblk m c 3 t) r0_3) (iblk m c 4 t) (ix2 p q)
      = Cheby.filterAt (V m c main_arg0) (V m c main_v52) (V m c main_v72) (V m c main_arg3) (V m c main_arg4) (rowOf t p) q := by
  refine (pay_apply (iblk m c 0 t) (iblk m c 1 t) (iblk m c 2 t) (View.ld (iblk m c 3 t) r0_1)
      (View.ld (iblk m c 3 t) r0_2) (View.ld (iblk m c 3 t) r0_3) (iblk m c 4 t) p q).trans ?_
  unfold Cheby.filterAt
  refine congrArg₂ (· + ·) (congrArg₂ (· + ·) (congrArg₂ (· + ·) ?_ ?_) ?_) (read_bias (V m c main_arg4) t q)
  · exact Finset.sum_congr rfl fun k _ => congrArg₂ (· * ·) (read_rows0 (V m c main_arg0) t p k) (read_slab (V m c main_arg3) t 0 (by decide) _ k q)
  · exact Finset.sum_congr rfl fun k _ => congrArg₂ (· * ·) (read_rows1 (V m c main_v52) t p k) (read_slab (V m c main_arg3) t 1 (by decide) _ k q)
  · exact Finset.sum_congr rfl fun k _ => congrArg₂ (· * ·) (read_rows2 (V m c main_v72) t p k) (read_slab (V m c main_arg3) t 2 (by decide) _ k q)

/-- What grid point `t` writes back is block `t` of the filter sum. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz2]
  simp only [View.ld_unit_zero (S := S10000x64) hz2, View.ld_unit_zero (S := S64) hz1]
  generalize hG : result m c = G
  funext j
  obtain ⟨p, q, rfl⟩ : ∃ (p : Fin 10000) (q : Fin 64), j = ix2 p q := ⟨j 0, j 1, eq_ix2 j⟩
  show k0_pay1 (F := Ideal) (iblk m c 0 t) (iblk m c 1 t) (iblk m c 2 t) (View.ld (iblk m c 3 t) r0_1)
      (View.ld (iblk m c 3 t) r0_2) (View.ld (iblk m c 3 t) r0_3) (iblk m c 4 t) (ix2 p q)
    = G (((cfg0.win 5).blk t).view.emb (ix2 p q))
  rw [emb_out, ← hG]
  exact stored_apply m c t p q

/-- An index of the result array is in point `t`'s block iff each coordinate is in the block's range. -/
theorem mem_blk (t : Fin cfg0.N) (i : S50000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v73).slice (win0_5.rect t)).set ↔ _
  rw [View.set_slice_whole, Rect.mem_set_unit]
  exact Iff.rfl

/-- Every row of the result lies in exactly the block of its row index divided by 10000. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  let t : Fin cfg0.N := ⟨(i 0).val / 10000, by show (i 0).val / 10000 < 5; omega⟩
  obtain ⟨e00, e01, e10, e11, e20, e21, e30, e31, e32, e40, e50, e51, ht⟩ := idx_facts t
  refine ⟨t, flush0_5 t, ?_⟩
  rw [mem_blk]
  intro a
  have htv : t.val = (i 0).val / 10000 := rfl
  match a with
  | ⟨0, _⟩ => show win0_5.index t (0 : Fin 2) * 10000 ≤ (i 0).val ∧ (i 0).val < win0_5.index t (0 : Fin 2) * 10000 + 10000; rw [e50, htv]; omega
  | ⟨1, _⟩ => show win0_5.index t (1 : Fin 2) * 64 ≤ (i 1).val ∧ (i 1).val < win0_5.index t (1 : Fin 2) * 64 + 64; rw [e51]; omega

/-- After the launch the result array is the filter sum of the arrays the launch found. -/
theorem final (c : Dev nD) : (dats m 0 c).arrAt 5 cfg0.N = result m c :=
  (dats m 0 c).arrAt_eq_of_cover 5 (result m c) (fun t _ => flushed_eq m c t) cover

/-- The run, read: the result array at the filter sum, the arguments unchanged. -/
theorem run : θ_run defs (onTc (τ := τ) (main (F := Ideal))) ⟨m, fun _ => 0, ρ⟩ fun r => ∀ c : Dev nD,
      r.2.mem ((c : Thread nD τ).loc main_v73) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.KernelIdeal.Hand

end
-- ==== Proof.HostTerms.lean ====
/-
  The Chebyshev terms the kernel is launched on are the reference's.

  Before its one launch the kernel's host code normalises the edge weights and propagates the
  features twice, operation for operation as the reference does (self loops dropped, degrees by a
  scatter-add, inverse square roots, the gathered and rescaled edge weights, then for each
  propagation a gather of the rows at the edges' targets, a product with the edge weights, a
  scatter-add at their sources, and the diagonal term). So the array the launch finds as its second
  operand is the reference's first-order term `T1 = L x`, and its third operand the reference's
  second-order term `T2 = 2 L T1 - x`, as the same functions of the node features, the edge list and
  the edge weights. Both are read off the two programs' operation lists; nothing is computed.
-/
import proofs.«100515_j60601988547227_1_alg».proof.Proof.Gen.KernelIdeal.Frame
import proofs.«100515_j60601988547227_1_alg».proof.Proof.Gen.ReferenceIdeal.Read
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxRecDepth 8192 in
set_option maxHeartbeats 40000000 in
/-- The launch's second operand is the reference's first-order term of the arguments. -/
theorem term1_eq (c : Dev nD) :
    V m c main_v52 = Cert.ReferenceIdeal.Read.val_main_v55 (F := F) (m ((c : Thread nD τ).loc main_arg0))
      (m ((c : Thread nD τ).loc main_arg1)) (m ((c : Thread nD τ).loc main_arg2)) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

set_option maxRecDepth 8192 in
set_option maxHeartbeats 40000000 in
/-- The launch's third operand is the reference's second-order term of the arguments. -/
theorem term2_eq (c : Dev nD) :
    V m c main_v72 = Cert.ReferenceIdeal.Read.val_main_v79 (F := F) (m ((c : Thread nD τ).loc main_arg0))
      (m ((c : Thread nD τ).loc main_arg1)) (m ((c : Thread nD τ).loc main_arg2)) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

end Cert.KernelIdeal.Hand

end
-- ==== Proof.RefValue.lean ====
/-
  The reference's result is the filter sum of its own Chebyshev terms.

  After computing `T1` and `T2` the reference multiplies the node features and the two terms each by
  its order's `[64, 64]` slice of the weights (a slice of the `[3, 64, 64]` stack reshaped to a
  matrix), adds the three products in the order of the orders and then the bias broadcast over the
  nodes. Read at node `r`, unit `c`, each host product is the sum over the feature index `k` of
  `t[r, k] · w[o, k, c]`, so the result is the filter sum of `x`, `T1`, `T2`.
-/
import proofs.«100515_j60601988547227_1_alg».proof.Proof.Gen.ReferenceIdeal.Read
import proofs.«100515_j60601988547227_1_alg».proof.Proof.LibDot2
import proofs.«100515_j60601988547227_1_alg».proof.Proof.Spec
import Idealize.ShloMosaic.Lib.Pipeline.Value
import Idealize.ShloMosaic.Lib.ValueIdx
import Idealize.ShloMosaic.Lib.ValueLayout

noncomputable section

open scoped BigOperators

namespace Cert.ReferenceIdeal.Hand

open Cert.ReferenceIdeal Cert.ReferenceIdeal.Gen Cert.ReferenceIdeal.Read Idealize.ShloMosaic Idealize.ShloMosaic.ValueIdx

/-- One order's host product at `(r, c)`: a `[50000, 64]` array times slab `o` of the weight stack,
    sliced out and read as a `[64, 64]` matrix, is the sum over the feature index of the products
    `t[r, k] · w[o, k, c]`. -/
theorem order_apply (t : FVec Ideal S50000x64 .f32) (w : FVec Ideal S3x64x64 .f32) (o : Nat) (ho : o < 3)
    (h : S3x64x64.Slices ![o, 0, 0] S1x64x64) (h' : S1x64x64.ShapeCasts S64x64) (r : Fin 50000) (c : Fin 64) :
    Host.dotGeneral (F := Ideal) dot_S50000x64_S64x64_S50000x64_1_0_0_1_n_n none t
        (shapeCast S64x64 (extractStridedSlice S1x64x64 ![o, 0, 0] w h) h') (ix2 r c)
      = ∑ k : Fin 64, t (ix2 r k) * w (ix3 (⟨o, ho⟩ : Fin 3) k c) := by
  refine (Dot2.host_dotGeneral_mm_apply (M := 50000) (K := 64) (N := 64)
    dot_S50000x64_S64x64_S50000x64_1_0_0_1_n_n.wf none _ _ r c).trans ?_
  refine Finset.sum_congr rfl fun k _ => ?_
  rw [shapeCast_1ab_ab_apply]
  congr 1
  refine extractStridedSlice_apply _ w h _ _ fun a => ?_
  match a with
  | ⟨0, _⟩ => show o = o + 0; rfl
  | ⟨1, _⟩ => show k.val = 0 + k.val; omega
  | ⟨2, _⟩ => show c.val = 0 + c.val; omega

/-- The bias broadcast over the nodes, at `(r, c)`, is the bias at `c`. -/
theorem bias_apply (b : FVec Ideal S64 .f32) (r : Fin 50000) (c : Fin 64) :
    val_main_v85 (F := Ideal) b (ix2 r c) = b (ix1 c) := by
  rw [val_main_v85_apply, val_main_v84_apply]
  exact congrArg b (funext fun a => match a with | ⟨0, _⟩ => rfl)

/-- The reference's result array is the filter sum of the node features and the reference's own
    first- and second-order terms. -/
theorem result_eq (x0 : FVec Ideal S50000x64 .f32) (x1 : (⟨S2x800000, .i32⟩ : BufTy).Contents (Elt Ideal))
    (x2 : FVec Ideal S800000 .f32) (x3 : FVec Ideal S3x64x64 .f32) (x4 : FVec Ideal S64 .f32) :
    val_main_v86 (F := Ideal) x0 x1 x2 x3 x4
      = Cheby.filterSum x0 (val_main_v55 (F := Ideal) x0 x1 x2) (val_main_v79 (F := Ideal) x0 x1 x2) x3 x4 := by
  funext i
  obtain ⟨r, c, rfl⟩ : ∃ (r : Fin 50000) (c : Fin 64), i = ix2 r c := ⟨i 0, i 1, eq_ix2 i⟩
  rw [Cheby.filterSum_ix2]
  unfold Cheby.filterAt
  rw [val_main_v86_apply, val_main_v83_apply, val_main_v59_apply, bias_apply]
  simp only [Ideal.addf_def]
  refine congrArg₂ (· + ·) (congrArg₂ (· + ·) (congrArg₂ (· + ·) ?_ ?_) ?_) rfl
  · unfold val_main_v38 val_main_v37 val_main_v36
    exact order_apply x0 x3 0 (by decide) _ _ r c
  · unfold val_main_v58 val_main_v57 val_main_v56
    exact order_apply _ x3 1 (by decide) _ _ r c
  · unfold val_main_v82 val_main_v81 val_main_v80
    exact order_apply _ x3 2 (by decide) _ _ r c

end Cert.ReferenceIdeal.Hand

end
-- ==== Proof.lean ====
/-
  A Chebyshev graph convolution of order three: the dense stage as a row-blocked kernel against the
  reference's three host products.

  Both programs first build, on the host and operation for operation alike, the rescaled Laplacian's
  edge weights from the edge list and the edge weights, and from them the Chebyshev terms
  `T0 = x`, `T1 = L x`, `T2 = 2 L T1 - x` of the node features. The reference then computes
  `((x · W0 + T1 · W1) + T2 · W2) + b` with three host products; the kernel computes the same expression
  five row blocks of 10000 nodes at a time, each product accumulated into zero with its operands
  narrowed to bf16, which over the extended reals changes no value. Read at a node and a unit, each
  product on either side is the sum over the 64 features of the entries' products, and the two
  results are the same sums added in the same order: the filter sum of `Spec.lean`. No law of the
  extended reals is used beyond that reading, so the precondition is never opened.

  The modules: `Spec` (the filter sum), `LibDot2` (a matrix product read at an entry),
  `KernelPayload` (what the body stores, at an entry), `KernelValue` (the launch's result array is the
  filter sum of the arrays it finds), `HostTerms` (those arrays are the reference's `T1` and `T2`),
  `RefValue` (the reference's result is the filter sum of its terms).
-/
import proofs.«100515_j60601988547227_1_alg».proof.Defs
import proofs.«100515_j60601988547227_1_alg».proof.Proof.Gen.Kernel
import proofs.«100515_j60601988547227_1_alg».proof.Proof.Gen.Kernel.Skeleton
import proofs.«100515_j60601988547227_1_alg».proof.Proof.Gen.Kernel.Launch
import proofs.«100515_j60601988547227_1_alg».proof.Proof.Gen.Kernel.Points
import proofs.«100515_j60601988547227_1_alg».proof.Proof.Gen.Kernel.Frame
import proofs.«100515_j60601988547227_1_alg».proof.Proof.Gen.KernelIdeal
import proofs.«100515_j60601988547227_1_alg».proof.Proof.Gen.KernelIdeal.Skeleton
import proofs.«100515_j60601988547227_1_alg».proof.Proof.Gen.KernelIdeal.Launch
import proofs.«100515_j60601988547227_1_alg».proof.Proof.Gen.KernelIdeal.Points
import proofs.«100515_j60601988547227_1_alg».proof.Proof.Gen.KernelIdeal.Frame
import proofs.«100515_j60601988547227_1_alg».proof.Proof.Gen.ReferenceIdeal
import proofs.«100515_j60601988547227_1_alg».proof.Proof.Gen.Pre_finite_inputs
import proofs.«100515_j60601988547227_1_alg».proof.Proof.Gen.KernelIdeal.Value
import proofs.«100515_j60601988547227_1_alg».proof.Proof.Gen.ReferenceIdeal.Run
import proofs.«100515_j60601988547227_1_alg».proof.Proof.Gen.ReferenceIdeal.Read
import proofs.«100515_j60601988547227_1_alg».proof.Proof.KernelValue
import proofs.«100515_j60601988547227_1_alg».proof.Proof.HostTerms
import proofs.«100515_j60601988547227_1_alg».proof.Proof.RefValue
import Idealize.ShloMosaic.Adequacy
import Idealize.ShloMosaic.Init

noncomputable section

namespace Cert.Proof

open Idealize.ShloMosaic Idealize.SL.Sem

/-- The reference has no kernel: its frame is its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Both programs end with the filter sum of the node features, the reference's first- and
    second-order terms, the weights and the bias: the kernel's launch finds those terms in its second
    and third operands, and the reference multiplies them itself. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq, Cert.ReferenceIdeal.Hand.result_eq,
    (hagree c).1, (hagree c).2.1, (hagree c).2.2.1, (hagree c).2.2.2.1, (hagree c).2.2.2.2]
  show _ = Cheby.filterSum (Cert.KernelIdeal.Gen.V m c Cert.KernelIdeal.main_arg0) (Cert.KernelIdeal.Gen.V m c Cert.KernelIdeal.main_v52)
    (Cert.KernelIdeal.Gen.V m c Cert.KernelIdeal.main_v72) (Cert.KernelIdeal.Gen.V m c Cert.KernelIdeal.main_arg3)
    (Cert.KernelIdeal.Gen.V m c Cert.KernelIdeal.main_arg4)
  rw [Cert.KernelIdeal.Gen.V_main_arg0, Cert.KernelIdeal.Gen.V_main_arg3, Cert.KernelIdeal.Gen.V_main_arg4,
    Cert.KernelIdeal.Hand.term1_eq, Cert.KernelIdeal.Hand.term2_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
